-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x4096 : Shape := ⟨2, ![512, 4096]⟩
abbrev S4096 : Shape := ⟨1, ![4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x512 .f32) (main_arg1 : FVec F S512x4096 .f32) (main_arg2 : FVec F S4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x512 : Shape := ⟨2, ![8192, 512]⟩
abbrev S512x4096 : Shape := ⟨2, ![512, 4096]⟩
abbrev S4096 : Shape := ⟨1, ![4096]⟩
abbrev S1x4096 : Shape := ⟨2, ![1, 4096]⟩
abbrev S8192x4096 : Shape := ⟨2, ![8192, 4096]⟩
abbrev S1024x512 : Shape := ⟨2, ![1024, 512]⟩
abbrev S512x512 : Shape := ⟨2, ![512, 512]⟩
abbrev S1x512 : Shape := ⟨2, ![1, 512]⟩
abbrev S1024 : Shape := ⟨1, ![1024]⟩
abbrev S1024x1 : Shape := ⟨2, ![1024, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  reduces_S512x512_S512 : S512x512.Reduces [0] S512
  shapeCasts_S512_S1x512 : S512.ShapeCasts S1x512
  bitsLt_bf16_f32 : FTy.bits .bf16 < FTy.bits .f32
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .f32 = 32 ∨ (Rect.block (s := S512x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x4096 : Shape := ⟨2, ![512, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S4096, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S512x4096, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x4096_S4096_d0 : S512x4096.ReducesTo [0] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x512_S512x4096_S8192x4096_1_0_0_1_n_n_wf : DotDims.WF S8192x512 S512x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibKeepDims.lean ====
/-
  A sum over one axis of a matrix, and the keep-dims layouts around it, read at an index (ideal values).

  `jnp.sum(v, axis, keepdims=True)` in a kernel body is three operations: the sum over the axis into a vector, the vector
  stood up again with a unit axis, and (where it meets a full tile) that repeated over the tile. Here: the sum along the
  rows of an `[a, b]` matrix at a row (`sumCols_apply`) and down its columns at a column (`sumRows_apply`) as
  `Fin`-indexed sums; a vector `[a]` cast to a column `[a, 1]` (`shapeCast_a_a1_apply`); and a column `[a, 1]` broadcast
  over `b` columns (`broadcastTo_a1_ab_apply`). The row forms `[a] → [1, a]` and `[1, b] → [a, b]` are the library's
  (`shapeCast_a_1a_apply`, `broadcastTo_1b_ab_apply`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-! ## A sum over one axis of a matrix -/

/-- Summing an `[a, b]` matrix over its columns leaves, at row `p`, the sum of that row. -/
theorem sumCols_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ j : Fin b, v (ix2 p j) :=
  (Ideal.multiReduction_add_single v _ h hφ hacc (ix1 p)).trans
    (Finset.sum_congr rfl fun j _ => congrArg v (funext fun d => Fin.ext (by
      match d with
      | ⟨0, _⟩ => rfl
      | ⟨1, _⟩ => rfl)))

/-- Summing an `[a, b]` matrix over its rows leaves, at column `q`, the sum of that column. -/
theorem sumRows_apply {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ v 0x00000000#32 h hφ hacc (ix1 q) = ∑ j : Fin a, v (ix2 j q) :=
  (Ideal.multiReduction_add_single v _ h hφ hacc (ix1 q)).trans
    (Finset.sum_congr rfl fun j _ => congrArg v (funext fun d => Fin.ext (by
      match d with
      | ⟨0, _⟩ => rfl
      | ⟨1, _⟩ => rfl)))

/-! ## The column layouts -/

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RbfCell.lean ====
/-
  The Gaussian radial-basis layer, entry by entry, over the extended reals.

  For row `r` of `X` (`[8192, 512]`) and column `c` of `K` (`[512, 4096]`) the layer's entry is

      exp (−1 · max ((Σⱼ X r j · X r j + Σⱼ K j c · K j c) − 2 · Σⱼ X r j · K j c, 0)) + B c ,

  the squared distance ‖X r − K c‖² written out as |X r|² + |K c|² − 2 ⟨X r, K c⟩ and clamped at zero, then the
  Gaussian and the bias. `cell` is that expression of the three sums and the bias entry (the three float constants kept
  as the binary words both programs print), `rbfAt` the entry at `(r, c)`, `rbf` the whole `[8192, 4096]` array.
-/
import Idealize.ShloMosaic.Lib.ValueIdx
import Idealize.ShloMosaic.PureOps.Ideal.Laws

noncomputable section

namespace Cert.Rbf

open Idealize.ShloMosaic Idealize.ShloMosaic.ValueIdx

/-! ## One entry -/

/-- The entry from its three sums `xs = |x|²`, `ks = |k|²`, `d = ⟨x, k⟩` and the bias entry `b`:
    `exp (−1 · max ((xs + ks) − 2 · d, 0)) + b`, the constants `−1`, `2`, `0` as their f32 words. -/
def cell (xs ks d b : EReal) : EReal :=
  Ideal.exp (Ideal.ofBits .f32 0xBF800000#32
      * max ((xs + ks) - Ideal.ofBits .f32 0x40000000#32 * d) (Ideal.ofBits .f32 0x00000000#32)) + b

/-- Entry `(r, c)` of the layer: `cell` of row `r` of `X`, column `c` of `K` and `B c`. -/
def rbfAt (X : (⟨2, ![8192, 512]⟩ : Shape).Idx → EReal) (K : (⟨2, ![512, 4096]⟩ : Shape).Idx → EReal)
    (B : (⟨1, ![4096]⟩ : Shape).Idx → EReal) (r : Fin 8192) (c : Fin 4096) : EReal :=
  cell (∑ j : Fin 512, X (ix2 r j) * X (ix2 r j)) (∑ j : Fin 512, K (ix2 j c) * K (ix2 j c))
    (∑ j : Fin 512, X (ix2 r j) * K (ix2 j c)) (B (ix1 c))

/-- The whole layer, `[8192, 4096]`. -/
def rbf (X : (⟨2, ![8192, 512]⟩ : Shape).Idx → EReal) (K : (⟨2, ![512, 4096]⟩ : Shape).Idx → EReal)
    (B : (⟨1, ![4096]⟩ : Shape).Idx → EReal) : (⟨2, ![8192, 4096]⟩ : Shape).Idx → EReal :=
  fun i => rbfAt X K B ⟨(i 0).val, (i 0).isLt⟩ ⟨(i 1).val, (i 1).isLt⟩

theorem rbf_ix2 (X : (⟨2, ![8192, 512]⟩ : Shape).Idx → EReal) (K : (⟨2, ![512, 4096]⟩ : Shape).Idx → EReal)
    (B : (⟨1, ![4096]⟩ : Shape).Idx → EReal) (r : Fin 8192) (c : Fin 4096) :
    rbf X K B (ix2 r c) = rbfAt X K B r c := rfl

end Cert.Rbf

end
-- ==== Proof.KernelTile.lean ====
/-
  One tile of the layer, entry by entry, over the extended reals.

  At a grid point the body holds a `[1024, 512]` tile `v0` of rows of `X`, a `[512, 512]` tile `v1` of columns of `K`
  and a `[1, 512]` piece `v22` of the bias row. Its result at `(p, q)` is `cell` of the three sums over the shared
  axis, Σⱼ v0 p j · v0 p j, Σⱼ v1 j q · v1 j q and Σⱼ v0 p j · v1 j q, and of `v22 0 q`: the sum of squares along a
  row kept as a column and repeated over the columns, the sum of squares down a column kept as a row and repeated over
  the rows, the matrix unit's product of the operands narrowed to bf16 (narrowing is the identity here) into zeros,
  and the bias row repeated over the rows.
-/
import proofs.«178059_j70506183131345_1_alg».proof.Proof.Gen.KernelIdeal.Skeleton
import proofs.«178059_j70506183131345_1_alg».proof.Proof.LibAffineRows
import proofs.«178059_j70506183131345_1_alg».proof.Proof.LibKeepDims
import proofs.«178059_j70506183131345_1_alg».proof.Proof.RbfCell

noncomputable section

namespace Cert.KernelIdeal.Tile

open Cert.KernelIdeal Cert.KernelIdeal.Gen Idealize.ShloMosaic Idealize.ShloMosaic.ValueIdx

/-! ## The tile's product is the plain `[1024, 512] · [512, 512]` one -/

theorem lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_col (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_row (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- One contracted index of extent 512: the left operand's column and the right operand's row. -/
theorem plainDot : Cert.Lib.PlainDot (R := 1024) (K := 512) (M := 512) dot_S1024x512_S512x512_S1024x512_1_0_0_1_n_n :=
  ⟨rfl, rfl, lhs_row, lhs_col, rhs_row, rhs_col⟩

/-! ## The body's result at `(p, q)` -/

/-- The tile's result at `(p, q)` is `cell` of the tile's three sums and the bias piece at `q`. -/
theorem tile_apply (v0 : FVec Ideal S1024x512 .f32) (v1 : FVec Ideal S512x512 .f32) (v22 : FVec Ideal S1x512 .f32)
    (p : Fin 1024) (q : Fin 512) :
    k0_pay1 (F := Ideal) v0 v1 v22 (ix2 p q)
      = Cert.Rbf.cell (∑ j : Fin 512, v0 (ix2 p j) * v0 (ix2 p j)) (∑ j : Fin 512, v1 (ix2 j q) * v1 (ix2 j q))
          (∑ j : Fin 512, v0 (ix2 p j) * v1 (ix2 j q)) (v22 (ix2 (0 : Fin 1) q)) := by
  -- |v0 p|²: summed along the row, stood up as a column, repeated over the columns
  have hxs : broadcastTo S1024x512 (shapeCast S1024x1 (multiReduction .add [1] S1024 (mulf v0 v0) 0x00000000#32
        reduces_S1024x512_S1024 (.inl rfl) rfl) shapeCasts_S1024_S1024x1) broadcasts_S1024x1_S1024x512 (ix2 p q)
      = ∑ j : Fin 512, v0 (ix2 p j) * v0 (ix2 p j) :=
    (Cert.Lib.broadcastTo_a1_ab_apply _ _ p q).trans
      ((Cert.Lib.shapeCast_a_a1_apply _ _ p 0).trans (Cert.Lib.sumCols_apply (mulf v0 v0) _ _ _ p))
  -- |v1 q|²: summed down the column, laid as a row, repeated over the rows
  have hks : broadcastTo S1024x512 (shapeCast S1x512 (multiReduction .add [0] S512 (mulf v1 v1) 0x00000000#32
        reduces_S512x512_S512 (.inl rfl) rfl) shapeCasts_S512_S1x512) broadcasts_S1x512_S1024x512 (ix2 p q)
      = ∑ j : Fin 512, v1 (ix2 j q) * v1 (ix2 j q) :=
    (broadcastTo_1b_ab_apply _ _ p q).trans
      ((shapeCast_a_1a_apply _ _ 0 q).trans (Cert.Lib.sumRows_apply (mulf v1 v1) _ _ _ q))
  -- ⟨v0 p, v1 q⟩: the matrix unit's product into zeros
  have hd : matmul dot_S1024x512_S512x512_S1024x512_1_0_0_1_n_n none (truncf .bf16 v0 bitsLt_bf16_f32) (truncf .bf16 v1 bitsLt_bf16_f32)
        (constant S1024x512 .f32 0x00000000#32) (ix2 p q)
      = ∑ j : Fin 512, v0 (ix2 p j) * v1 (ix2 j q) :=
    Cert.Lib.matmul_zero_apply plainDot v0 v1 bitsLt_bf16_f32 p q
  -- the bias piece repeated over the rows
  have hb : broadcastTo S1024x512 (shapeCast S1x512 v22 shapeCasts_S1x512_S1x512) broadcasts_S1x512_S1024x512 (ix2 p q)
      = v22 (ix2 (0 : Fin 1) q) :=
    (broadcastTo_1b_ab_apply _ _ p q).trans (congrFun (shapeCast_self v22 _) _)
  rw [← hxs, ← hks, ← hd, ← hb]
  rfl

/-- The same against the whole arrays: where row `p` of the tile is row `r` of `X`, column `q` of the tile is column `c`
    of `K`, and the bias piece at `q` is `B c`, the tile's result at `(p, q)` is the layer's entry `(r, c)`. -/
theorem tile_eq_rbfAt (v0 : FVec Ideal S1024x512 .f32) (v1 : FVec Ideal S512x512 .f32) (v22 : FVec Ideal S1x512 .f32)
    (X : S8192x512.Idx → EReal) (K : S512x4096.Idx → EReal) (B : S4096.Idx → EReal)
    (p : Fin 1024) (q : Fin 512) (r : Fin 8192) (c : Fin 4096)
    (hx : ∀ j : Fin 512, v0 (ix2 p j) = X (ix2 r j)) (hk : ∀ j : Fin 512, v1 (ix2 j q) = K (ix2 j c))
    (hb : v22 (ix2 (0 : Fin 1) q) = B (ix1 c)) :
    k0_pay1 (F := Ideal) v0 v1 v22 (ix2 p q) = Cert.Rbf.rbfAt X K B r c := by
  rw [tile_apply]
  unfold Cert.Rbf.rbfAt
  simp only [hx, hk, hb]

end Cert.KernelIdeal.Tile

end
-- ==== Proof.KernelWhole.lean ====
/-
  From the tiles to the whole array.

  The grid is 8 × 8. At point `t` the output's block is rows `1024·a … 1024·a + 1023` and columns `512·b … 512·b + 511`
  of the `[8192, 4096]` result, where `(a, b)` is the block index the output's index map gives `t`; the tile of `X` is
  the same rows with all 512 columns, the tile of `K` all 512 rows with the same columns, and the bias piece the same
  columns of the bias row (the bias vector laid out as `[1, 4096]` before the call). So entry `(p, q)` of what point `t`
  writes back is `cell` of row `1024·a + p` of `X`, column `512·b + q` of `K` and bias entry `512·b + q`: block `t` of
  the layer `rbf`. Every `(a, b)` with `a, b < 8` is some point's block index, so the blocks cover the array, and after
  the run the array is `rbf` of the three arguments.
-/
import proofs.«178059_j70506183131345_1_alg».proof.Proof.Gen.KernelIdeal.Value
import proofs.«178059_j70506183131345_1_alg».proof.Proof.KernelTile
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 64 grid points: the tile of `X` sits at the output's row block and column block 0, the
    tile of `K` and the bias piece at row block 0 and the output's column block; both block indices are below 8. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block index `(a, b)`, `a, b < 8`, is some point's. -/
theorem idx_onto : ∀ (a : Fin 8) (b : Fin 8), ∃ t : Fin cfg0.N, win0_3.index t = ![a.val, b.val] :=
  (by decide +kernel : ∀ (a : Fin 8) (b : Fin 8), ∃ t : Fin grid0.N, win0_3.index t = ![a.val, b.val])

/-- The bias row the call is given is the bias vector: entry `(0, k)` of the row is entry `k` of the vector. -/
theorem biasRow_apply (c : Dev nD) (u : Fin 1) (k : Fin 4096) :
    (V m c main_v0 : S1x4096.Idx → EReal) (ix2 u k) = (m ((c : Thread nD τ).loc main_arg2) : S4096.Idx → EReal) (ix1 k) := by
  have e : (V m c main_v0 : S1x4096.Idx → EReal)
      = shapeCast S1x4096 (m ((c : Thread nD τ).loc main_arg2) : S4096.Idx → EReal) shapeCasts_S4096_S1x4096 := by
    dsimp only [Gen.V, Gen.hostOps0]; after_results; rfl
  rw [e]
  exact shapeCast_a_1a_apply _ _ u k

/-- WHAT POINT `t` WRITES BACK is block `t` of the layer of the three arguments. -/
theorem flushed_eq (c : Dev nD) (t : Fin cfg0.N) :
    (dats m 0 c).flushed 3 t = ((cfg0.win 3).blk t).view.read (Elt Ideal)
      (Cert.Rbf.rbf (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S1024x512) zero_offsets, View.ld_unit_zero (S := S512x512) zero_offsets,
    View.ld_unit_zero (S := S1x512) zero_offsets]
  obtain ⟨e00, e01, e10, e11, e20, e21, b0, b1⟩ := idx_facts t
  refine funext fun (y : S1024x512.Idx) => ?_
  obtain ⟨p, q, rfl⟩ : ∃ (p : Fin 1024) (q : Fin 512), y = ix2 p q := ⟨y 0, y 1, eq_ix2 y⟩
  have hp : p.val < 1024 := p.isLt
  have hq : q.val < 512 := q.isLt
  -- the entry's place in the whole array
  have hplace : ((cfg0.win 3).blk t).view.emb (ix2 p q)
      = ix2 (⟨win0_3.index t (0 : Fin 2) * 1024 + p.val, by omega⟩ : Fin 8192) (⟨win0_3.index t (1 : Fin 2) * 512 + q.val, by omega⟩ : Fin 4096) :=
    funext fun a => Fin.ext (by
      match a with
      | ⟨0, _⟩ => show win0_3.index t (0 : Fin 2) * 1024 + 1 * p.val = win0_3.index t (0 : Fin 2) * 1024 + p.val; omega
      | ⟨1, _⟩ => show win0_3.index t (1 : Fin 2) * 512 + 1 * q.val = win0_3.index t (1 : Fin 2) * 512 + q.val; omega)
  show k0_pay1 (F := Ideal) (iblk m c 0 t) (iblk m c 1 t) (iblk m c 2 t) (ix2 p q)
    = Cert.Rbf.rbf (m ((c : Thread nD τ).loc main_arg0)) (m ((c : Thread nD τ).loc main_arg1)) (m ((c : Thread nD τ).loc main_arg2))
        (((cfg0.win 3).blk t).view.emb (ix2 p q))
  rw [hplace, Cert.Rbf.rbf_ix2]
  refine Cert.KernelIdeal.Tile.tile_eq_rbfAt (iblk m c 0 t) (iblk m c 1 t) (iblk m c 2 t)
    (m ((c : Thread nD τ).loc main_arg0)) (m ((c : Thread nD τ).loc main_arg1)) (m ((c : Thread nD τ).loc main_arg2))
    p q ⟨win0_3.index t (0 : Fin 2) * 1024 + p.val, by omega⟩ ⟨win0_3.index t (1 : Fin 2) * 512 + q.val, by omega⟩ ?_ ?_ ?_
  · -- row p of the tile of X is row 1024·a + p of X
    intro j
    have hj : j.val < 512 := j.isLt
    show V m c main_arg0 (((cfg0.win 0).blk t).view.emb (ix2 p j)) = _
    rw [V_main_arg0]
    refine congrArg (m ((c : Thread nD τ).loc main_arg0)) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 512 + 1 * j.val = j.val; omega
  · -- column q of the tile of K is column 512·b + q of K
    intro j
    have hj : j.val < 512 := j.isLt
    show V m c main_arg1 (((cfg0.win 1).blk t).view.emb (ix2 j q)) = _
    rw [V_main_arg1]
    refine congrArg (m ((c : Thread nD τ).loc main_arg1)) (funext fun a => Fin.ext ?_)
    match a with
    | ⟨0, _⟩ => show win0_1.index t (0 : Fin 2) * 512 + 1 * j.val = j.val; omega
    | ⟨1, _⟩ => show win0_1.index t (1 : Fin 2) * 512 + 1 * q.val = win0_3.index t (1 : Fin 2) * 512 + q.val; omega
  · -- entry q of the bias piece is bias entry 512·b + q
    show V m c main_v0 (((cfg0.win 2).blk t).view.emb (ix2 (0 : Fin 1) q)) = _
    have hrow : ((cfg0.win 2).blk t).view.emb (ix2 (0 : Fin 1) q)
        = ix2 (0 : Fin 1) (⟨win0_3.index t (1 : Fin 2) * 512 + q.val, by omega⟩ : Fin 4096) :=
      funext fun a => Fin.ext (by
        match a with
        | ⟨0, _⟩ => show win0_2.index t (0 : Fin 2) * 1 + 1 * 0 = 0; omega
        | ⟨1, _⟩ => show win0_2.index t (1 : Fin 2) * 512 + 1 * q.val = win0_3.index t (1 : Fin 2) * 512 + q.val; omega)
    rw [hrow]
    exact biasRow_apply m c 0 _

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- The blocks cover the array: index `(r, c)` is in the block with index `(r / 1024, c / 512)`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE ARRAY after the run is the layer of the three arguments. -/
theorem final (c : Dev nD) : (dats m 0 c).arrAt 3 cfg0.N
    = Cert.Rbf.rbf (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1)
        = Cert.Rbf.rbf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Whole

end
-- ==== Proof.ReferenceEntry.lean ====
/-
  The plain program's result, entry by entry, over the extended reals.

  Read one operation at a time, the result at `(r, c)` is `exp (−1 · max ((0 + Σⱼ X r j · X r j) + (0 + Σⱼ K j c · K j c)
  − 2 · Σⱼ X r j · K j c, 0)) + B c`: the two sums of squares start from the zero word, which is `0`, so the result is the
  layer `rbf X K B`.
-/
import proofs.«178059_j70506183131345_1_alg».proof.Proof.Gen.ReferenceIdeal.Read
import proofs.«178059_j70506183131345_1_alg».proof.Proof.RbfCell

noncomputable section

namespace Cert.ReferenceIdeal.Entry

open Cert.ReferenceIdeal Cert.ReferenceIdeal.Read Idealize.ShloMosaic Idealize.ShloMosaic.ValueIdx

/-- The plain program's result array is the layer of its three arguments. -/
theorem val_eq_rbf (x0 : (⟨S8192x512, .f32⟩ : BufTy).Contents (Elt Ideal)) (x1 : (⟨S512x4096, .f32⟩ : BufTy).Contents (Elt Ideal))
    (x2 : (⟨S4096, .f32⟩ : BufTy).Contents (Elt Ideal)) :
    val_main_v20 (F := Ideal) x0 x1 x2 = Cert.Rbf.rbf x0 x1 x2 := by
  funext i
  obtain ⟨r, c, rfl⟩ : ∃ (r : Fin 8192) (c : Fin 4096), i = ix2 r c := ⟨i 0, i 1, eq_ix2 i⟩
  -- where each operation reads its operand: row r of X, column c of K, entry c of B
  have eXrow : ∀ j : Fin 512, idx_main_v1 (idx_main_v2 (idx_main_v6 (ix2 r c))) j = ix2 r j := fun j =>
    funext fun a => Fin.ext (by match a with | ⟨0, _⟩ => rfl | ⟨1, _⟩ => rfl)
  have eKcol : ∀ j : Fin 512, idx_main_v4 (idx_main_v5 (idx_main_v7 (ix2 r c))) j = ix2 j c := fun j =>
    funext fun a => Fin.ext (by match a with | ⟨0, _⟩ => rfl | ⟨1, _⟩ => rfl)
  have eL : ∀ j : Fin 512, lidx_main_v9 (ix2 r c) j = ix2 r j := fun j =>
    funext fun a => Fin.ext (by match a with | ⟨0, _⟩ => rfl | ⟨1, _⟩ => rfl)
  have eR : ∀ j : Fin 512, ridx_main_v9 (ix2 r c) j = ix2 j c := fun j =>
    funext fun a => Fin.ext (by match a with | ⟨0, _⟩ => rfl | ⟨1, _⟩ => rfl)
  have eB : idx_main_v18 (idx_main_v19 (ix2 r c)) = ix1 c :=
    funext fun a => Fin.ext (by match a with | ⟨0, _⟩ => rfl)
  rw [Cert.Rbf.rbf_ix2, val_main_v20_apply, val_main_v17_apply, val_main_v16_apply, val_main_v15_apply, val_main_cst_3_apply,
    val_main_v14_apply, val_main_v13_apply, val_main_cst_2_apply, val_main_v12_apply, val_main_v8_apply,
    val_main_v6_apply, val_main_v2_apply, val_main_v1_apply, val_main_cst_apply,
    val_main_v7_apply, val_main_v5_apply, val_main_v4_apply, val_main_cst_0_apply,
    val_main_v11_apply, val_main_v10_apply, val_main_cst_1_apply, val_main_v9_apply,
    val_main_v19_apply, val_main_v18_apply]
  simp only [val_main_v0_apply, val_main_v3_apply, eXrow, eKcol, eL, eR, eB, Ideal.addf_def, Ideal.subf_def, Ideal.mulf_def,
    Ideal.maximumf_def, Ideal.hostUnary_exp_def, Ideal.ofBits_def, Ideal.ofBits_zero_f32, zero_add, Cert.Rbf.rbfAt, Cert.Rbf.cell]

end Cert.ReferenceIdeal.Entry

end
-- ==== Proof.lean ====
/-
  A Gaussian radial-basis layer: for rows `X r` (`X : [8192, 512]`), columns `K c` (`K : [512, 4096]`) and a bias `B : [4096]`,

      out r c = exp (−1 · max ((Σⱼ X r j · X r j + Σⱼ K j c · K j c) − 2 · Σⱼ X r j · K j c, 0)) + B c ,

  the squared distance ‖X r − K c‖² written out as |X r|² + |K c|² − 2 ⟨X r, K c⟩ and clamped at zero.

  The kernel computes it in 8 × 8 tiles of `[1024, 512]`: a tile of rows of `X` with all 512 columns, a tile of columns of
  `K` with all 512 rows, the matching piece of the bias row; the shared axis is never split, so each of the three sums is
  a whole sum inside the tile. The plain program computes the same expression on the whole arrays. Over the extended reals
  narrowing to bf16 is the identity, the matrix unit's product into zeros and the host's `dot_general` are the textbook
  sum, and a sum started from the zero word is the sum; so both results are the one function `Cert.Rbf.rbf` of the
  arguments, entry by entry (RbfCell: the function; KernelTile: a tile at an entry; KernelWhole: the tiles cover the
  array; ReferenceEntry: the plain program at an entry). No law of the extended reals beyond `0 + s = s` is used, so the
  inputs' finiteness is never opened.

  The three frames are the programs' runs with the results dropped; the idealization rewrote nothing, so `preserves` is
  `True`.
-/
import proofs.«178059_j70506183131345_1_alg».proof.Defs
import proofs.«178059_j70506183131345_1_alg».proof.Proof.Gen.Kernel
import proofs.«178059_j70506183131345_1_alg».proof.Proof.Gen.Kernel.Skeleton
import proofs.«178059_j70506183131345_1_alg».proof.Proof.Gen.Kernel.Launch
import proofs.«178059_j70506183131345_1_alg».proof.Proof.Gen.Kernel.Points
import proofs.«178059_j70506183131345_1_alg».proof.Proof.Gen.Kernel.Frame
import proofs.«178059_j70506183131345_1_alg».proof.Proof.Gen.KernelIdeal
import proofs.«178059_j70506183131345_1_alg».proof.Proof.Gen.KernelIdeal.Skeleton
import proofs.«178059_j70506183131345_1_alg».proof.Proof.Gen.KernelIdeal.Launch
import proofs.«178059_j70506183131345_1_alg».proof.Proof.Gen.KernelIdeal.Points
import proofs.«178059_j70506183131345_1_alg».proof.Proof.Gen.KernelIdeal.Frame
import proofs.«178059_j70506183131345_1_alg».proof.Proof.Gen.ReferenceIdeal
import proofs.«178059_j70506183131345_1_alg».proof.Proof.Gen.Pre_finite_inputs
import proofs.«178059_j70506183131345_1_alg».proof.Proof.Gen.KernelIdeal.Value
import proofs.«178059_j70506183131345_1_alg».proof.Proof.Gen.ReferenceIdeal.Run
import proofs.«178059_j70506183131345_1_alg».proof.Proof.Gen.ReferenceIdeal.Read
import proofs.«178059_j70506183131345_1_alg».proof.Proof.KernelWhole
import proofs.«178059_j70506183131345_1_alg».proof.Proof.ReferenceEntry
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `X`, `K` and `B`, the tiled kernel's result array and the plain program's are both the
    layer `rbf X K B`. -/
theorem algebraic : Cert.algebraic_KernelIdeal_ReferenceIdeal := by
  intro m ρ m' ρ' _ hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Entry.val_eq_rbf, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
